-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S11008 .f32) (main_arg5 : FVec F S4096x11008 .f32) (main_arg6 : FVec F S4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  let main_v24 : FVec F S4096x11008 .f32 := Host.absf main_arg5
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S2x2048x4096 .f32) (main_arg1 : FVec F S11008x4096 .f32) (main_arg2 : FVec F S11008 .f32) (main_arg3 : FVec F S11008x4096 .f32) (main_arg4 : FVec F S11008 .f32) (main_arg5 : FVec F S4096x11008 .f32) (main_arg6 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008x4096 .f32 := Host.absf main_arg3
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg4 main_arg5 main_arg6 main_v13 main_v16
-- ==== Kernel.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S4096x4096 : Shape := ⟨2, ![4096, 4096]⟩
abbrev S1x11008 : Shape := ⟨2, ![1, 11008]⟩
abbrev S1x4096 : Shape := ⟨2, ![1, 4096]⟩
abbrev S256x4096 : Shape := ⟨2, ![256, 4096]⟩
abbrev S1x256 : Shape := ⟨2, ![1, 256]⟩
abbrev S4096x256 : Shape := ⟨2, ![4096, 256]⟩
abbrev S256x256 : Shape := ⟨2, ![256, 256]⟩

abbrev nBuf : Space → Nat
  | .hbm => 17
  | .vmem => 16
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S11008, .f32⟩
  | .hbm, ⟨5, _⟩ => ⟨S4096x11008, .f32⟩
  | .hbm, ⟨6, _⟩ => ⟨S4096, .f32⟩
  | .hbm, ⟨7, _⟩ => ⟨S4096x4096, .f32⟩
  | .hbm, ⟨8, _⟩ => ⟨S4096x4096, .bf16⟩
  | .hbm, ⟨9, _⟩ => ⟨S11008x4096, .bf16⟩
  | .hbm, ⟨10, _⟩ => ⟨S11008x4096, .bf16⟩
  | .hbm, ⟨11, _⟩ => ⟨S4096x11008, .bf16⟩
  | .hbm, ⟨12, _⟩ => ⟨S1x11008, .f32⟩
  | .hbm, ⟨13, _⟩ => ⟨S1x11008, .f32⟩
  | .hbm, ⟨14, _⟩ => ⟨S1x4096, .f32⟩
  | .hbm, ⟨15, _⟩ => ⟨S4096x4096, .f32⟩
  | .hbm, ⟨16, _⟩ => ⟨S2x2048x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S256x4096, .bf16⟩
  | .local _ .vmem, ⟨7, _⟩ => ⟨S256x4096, .bf16⟩
  | .local _ .vmem, ⟨8, _⟩ => ⟨S1x256, .f32⟩
  | .local _ .vmem, ⟨9, _⟩ => ⟨S1x256, .f32⟩
  | .local _ .vmem, ⟨10, _⟩ => ⟨S4096x256, .bf16⟩
  | .local _ .vmem, ⟨11, _⟩ => ⟨S4096x256, .bf16⟩
  | .local _ .vmem, ⟨12, _⟩ => ⟨S1x4096, .f32⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 43], ![false, false]⟩

def k0_cond2 (i : grid0.Coords) : BitVec 1 :=
  let arg1 : BitVec 32 := BitVec.ofNat 32 (i 1).val
  let c42_i32 : BitVec 32 := 42#32
  let v34 : BitVec 1 := Scalar.cmpi .eq arg1 c42_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x2048x4096_S4096x4096 : S2x2048x4096.ShapeCasts S4096x4096
  bitsLt_bf16_f32 : FTy.bits .bf16 < FTy.bits .f32
  shapeCasts_S11008_S1x11008 : S11008.ShapeCasts S1x11008
  shapeCasts_S4096_S1x4096 : S4096.ShapeCasts S1x4096
  shapeCasts_S4096x4096_S2x2048x4096 : S4096x4096.ShapeCasts S2x2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  transposes_S4096x256_p1_0_S256x4096 : S4096x256.Transposes [1, 0] S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x256_S256x256_1_0_0_1_n_n_wf : DotDims.WF S256x4096 S4096x256 S256x256 [1] [0] [0] [1] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x11008.size a
  hwx0_5 : ∀ i : grid0.Coords, EltTy.bits .bf16 = 32 ∨ (Rect.block (s := S4096x11008) S4096x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S4096x4096.size a
  hwx0_7 : ∀ i : grid0.Coords, EltTy.bits .f32 = 32 ∨ (Rect.block (s := S4096x4096) S256x4096.size (cc0_transform_7 i) (hinb0_7 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_call0_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v8) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S2x2048x11008 : Shape := ⟨3, ![2, 2048, 11008]⟩
abbrev S1x1x11008 : Shape := ⟨3, ![1, 1, 11008]⟩
abbrev S_ : Shape := ⟨0, ![]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S11008, .f32⟩
  | .hbm, ⟨5, _⟩ => ⟨S4096x11008, .f32⟩
  | .hbm, ⟨6, _⟩ => ⟨S4096, .f32⟩
  | .hbm, ⟨7, _⟩ => ⟨S2x2048x11008, .f32⟩
  | .hbm, ⟨8, _⟩ => ⟨S1x1x11008, .f32⟩
  | .hbm, ⟨9, _⟩ => ⟨S2x2048x11008, .f32⟩
  | .hbm, ⟨10, _⟩ => ⟨S2x2048x11008, .f32⟩
  | .hbm, ⟨11, _⟩ => ⟨S2x2048x11008, .f32⟩
  | .hbm, ⟨12, _⟩ => ⟨S2x2048x11008, .f32⟩
  | .hbm, ⟨13, _⟩ => ⟨S_, .f32⟩
  | .hbm, ⟨14, _⟩ => ⟨S2x2048x11008, .f32⟩
  | .hbm, ⟨15, _⟩ => ⟨S2x2048x11008, .f32⟩
  | .hbm, ⟨16, _⟩ => ⟨S_, .f32⟩
  | .hbm, ⟨17, _⟩ => ⟨S2x2048x11008, .f32⟩
  | .hbm, ⟨18, _⟩ => ⟨S2x2048x11008, .f32⟩
  | .hbm, ⟨19, _⟩ => ⟨S2x2048x11008, .f32⟩
  | .hbm, ⟨20, _⟩ => ⟨S2x2048x11008, .f32⟩
  | .hbm, ⟨21, _⟩ => ⟨S1x1x11008, .f32⟩
  | .hbm, ⟨22, _⟩ => ⟨S2x2048x11008, .f32⟩
  | .hbm, ⟨23, _⟩ => ⟨S2x2048x11008, .f32⟩
  | .hbm, ⟨24, _⟩ => ⟨S2x2048x11008, .f32⟩
  | .hbm, ⟨25, _⟩ => ⟨S2x2048x4096, .f32⟩
  | .hbm, ⟨26, _⟩ => ⟨S1x1x4096, .f32⟩
  | .hbm, ⟨27, _⟩ => ⟨S2x2048x4096, .f32⟩
  | .hbm, ⟨28, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  bcast_S_S2x2048x11008 : S_.BroadcastsInDim S2x2048x11008 (![] : Fin 0 → Fin S2x2048x11008.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.Spec.lean ====
/-
  The mathematics of the gated feed-forward block, with no program in sight.

  For a row `(b, s)` of the input `x : [2, 2048, 4096]` and a hidden unit `i < 11008`, write
  `g i = (∑ e, x b s e * wg i e) + bg i` and `u i = (∑ e, x b s e * wu i e) + bu i` for the two linear
  pre-activations. The hidden activation is `(g i * σ (g i)) * u i` with `σ z = 1 / (1 + e^(-z))` the logistic
  function, and the result at column `h < 4096` is `(∑ i, hid i * wd h i) + bd h`.

  Two facts about that expression are all the two programs differ by.
  * The logistic function written as one operation and written out as `1 / (1 + exp (-z))` are one function on
    every extended real: it is the definition.
  * A sum over the 11008 hidden units may be taken 256 at a time: the sum of the first `k + 1` blocks is the sum
    of the first `k` blocks plus block `k`, it starts at `0`, and after 43 blocks it is the whole sum. Only
    associativity and commutativity of `+` on the extended reals are used, so no finiteness is needed.
-/
import Idealize.ShloMosaic.PureOps.Ideal
import Idealize.ShloMosaic.Lib.ValueIdx

noncomputable section

open scoped BigOperators
open Idealize.ShloMosaic Idealize.ShloMosaic.ValueIdx

namespace Cert.SwiGlu

/-! ## The shapes -/

abbrev SX : Shape := ⟨3, ![2, 2048, 4096]⟩
abbrev SW : Shape := ⟨2, ![11008, 4096]⟩
abbrev SB : Shape := ⟨1, ![11008]⟩
abbrev SD : Shape := ⟨2, ![4096, 11008]⟩
abbrev SC : Shape := ⟨1, ![4096]⟩

/-! ## The function both programs compute -/

/-- A linear pre-activation: row `(b, s)` of `x` against row `i` of the weight `w`, plus the bias at `i`. -/
def lin (x : SX.Idx → EReal) (w : SW.Idx → EReal) (β : SB.Idx → EReal) (b : Fin 2) (s : Fin 2048) (i : Fin 11008) : EReal :=
  (∑ e : Fin 4096, x (ix3 b s e) * w (ix2 i e)) + β (ix1 i)

/-- The gated activation of two pre-activations: `(g · σ g) · u`. -/
def act (g u : EReal) : EReal := (g * Ideal.logistic g) * u

/-- The hidden activation of unit `i` on row `(b, s)`. -/
def hid (x : SX.Idx → EReal) (wg : SW.Idx → EReal) (bg : SB.Idx → EReal) (wu : SW.Idx → EReal) (bu : SB.Idx → EReal)
    (b : Fin 2) (s : Fin 2048) (i : Fin 11008) : EReal :=
  act (lin x wg bg b s i) (lin x wu bu b s i)

/-- One summand of the down-projection at output column `h`: unit `i`'s activation times its down weight. -/
def downTerm (x : SX.Idx → EReal) (wg : SW.Idx → EReal) (bg : SB.Idx → EReal) (wu : SW.Idx → EReal) (bu : SB.Idx → EReal)
    (wd : SD.Idx → EReal) (b : Fin 2) (s : Fin 2048) (h : Fin 4096) (i : Fin 11008) : EReal :=
  hid x wg bg wu bu b s i * wd (ix2 h i)

/-- The whole block: `down (silu (gate x) * up x)`, index by index. -/
def mlp (x : SX.Idx → EReal) (wg : SW.Idx → EReal) (bg : SB.Idx → EReal) (wu : SW.Idx → EReal) (bu : SB.Idx → EReal)
    (wd : SD.Idx → EReal) (bd : SC.Idx → EReal) : SX.Idx → EReal := fun j =>
  (∑ i : Fin 11008, downTerm x wg bg wu bu wd (j 0) (j 1) (j 2) i) + bd (ix1 (j 2))

/-! ## The logistic function, written out -/

/-- `1 / (1 + e^(-z))` spelled with a division, a sum, an exponential and a negation is the logistic function. -/
theorem logistic_spelled (z : EReal) : Ideal.div 1 (1 + Ideal.exp (-z)) = Ideal.logistic z := rfl

/-! ## A sum over the hidden units, 256 at a time -/

/-- A summand over the hidden units continued by zero to every natural number. -/
def ext (f : Fin 11008 → EReal) (n : ℕ) : EReal := if h : n < 11008 then f ⟨n, h⟩ else 0

theorem ext_of_lt (f : Fin 11008 → EReal) (n : ℕ) (h : n < 11008) : ext f n = f ⟨n, h⟩ := dif_pos h

/-- The sum of the first `k` blocks of 256 units. -/
def firstBlocks (f : Fin 11008 → EReal) (k : ℕ) : EReal := ∑ n ∈ Finset.range (256 * k), ext f n

/-- No block: zero. -/
theorem firstBlocks_zero (f : Fin 11008 → EReal) : firstBlocks f 0 = 0 := by
  simp [firstBlocks]

/-- One block more: the blocks before it plus that block's 256 units. -/
theorem firstBlocks_succ (f : Fin 11008 → EReal) (k : ℕ) :
    firstBlocks f (k + 1) = firstBlocks f k + ∑ j : Fin 256, ext f (256 * k + j.val) := by
  unfold firstBlocks
  rw [show 256 * (k + 1) = 256 * k + 256 by ring, Finset.sum_range_add]
  exact congrArg (_ + ·) (Finset.sum_range fun n => ext f (256 * k + n))

/-- All 43 blocks: the whole sum. -/
theorem firstBlocks_all (f : Fin 11008 → EReal) : firstBlocks f 43 = ∑ i : Fin 11008, f i := by
  unfold firstBlocks
  rw [show 256 * 43 = 11008 by norm_num, Finset.sum_range]
  exact Finset.sum_congr rfl fun i _ => ext_of_lt f i.val i.isLt

end Cert.SwiGlu

end
-- ==== Proof.Payload.lean ====
/-
  The body's arithmetic at one entry of a block, over the extended reals.

  A product of a `[256, 4096]` block with a transposed `[256, 4096]` block into a zero accumulator is, at `(p, j)`,
  the sum over the 4096 columns of row `p` of the first times row `j` of the second; a product of the `[256, 256]`
  gated activations with the transposed `[4096, 256]` down-weight block is, at `(p, c)`, the sum over the block's
  256 units. A bias row `[1, n]` broadcast over the rows reads its one row. Changes of float format are the
  identity. So one accumulation step adds, to the accumulator's entry `(p, c)`, the block's 256 gated activations of
  row `p` against row `c` of the down-weight block; the reset stores zeros; the last step adds the output bias.
-/
import proofs.«177315_j27573690040806_1_alg».proof.Proof.Gen.KernelIdeal.Skeleton
import proofs.«177315_j27573690040806_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace Cert.KernelIdeal.Payload

open Cert.KernelIdeal Cert.KernelIdeal.Gen Cert.SwiGlu

/-! ## The two block products' operand indices, axis by axis -/

theorem lhs_in_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_in_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_in_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_in_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

theorem lhs_down_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem lhs_down_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem rhs_down_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem rhs_down_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-! ## The block products at an entry -/

/-- A `[256, 4096] × [4096, 256]` product into zeros, at `(p, j)`: the sum over the 4096 contracted columns. -/
theorem prod_in_apply (l : FVec Ideal S256x4096 .bf16) (r : FVec Ideal S4096x256 .bf16) (p j : Fin 256) :
    matmul dot_S256x4096_S4096x256_S256x256_1_0_0_1_n_n none l r (constant S256x256 .f32 0x00000000#32) (ix2 p j)
      = ∑ e : Fin 4096, l (ix2 p e) * r (ix2 e j) := by
  simp only [matmul]
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p j) ((contrEquiv1 dot_S256x4096_S4096x256_S256x256_1_0_0_1_n_n 4096 rfl rfl).symm k) = ix2 p k := funext fun a => Fin.ext (by
    match a with
    | ⟨0, _⟩ => exact lhs_in_0 _ _
    | ⟨1, _⟩ => exact (lhs_in_1 _ _).trans hk)
  have er : dot_S256x4096_S4096x256_S256x256_1_0_0_1_n_n.rhsIdx (ix2 p j) ((contrEquiv1 dot_S256x4096_S4096x256_S256x256_1_0_0_1_n_n 4096 rfl rfl).symm k) = ix2 k j := funext fun a => Fin.ext (by
    match a with
    | ⟨0, _⟩ => exact (rhs_in_0 _ _).trans hk
    | ⟨1, _⟩ => exact rhs_in_1 _ _)
  rw [el, er]

/-- A `[256, 256] × [256, 4096]` product into zeros, at `(p, c)`: the sum over the block's 256 units. -/
theorem prod_down_apply (l : FVec Ideal S256x256 .bf16) (r : FVec Ideal S256x4096 .bf16) (p : Fin 256) (c : Fin 4096) :
    matmul dot_S256x256_S256x4096_S256x4096_1_0_0_1_n_n none l r (constant S256x4096 .f32 0x00000000#32) (ix2 p c)
      = ∑ j : Fin 256, l (ix2 p j) * r (ix2 j c) := by
  simp only [matmul]
  rw [Ideal.matmul_constant_zero_apply, ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 p c) ((contrEquiv1 dot_S256x256_S256x4096_S256x4096_1_0_0_1_n_n 256 rfl rfl).symm k) = ix2 p k := funext fun a => Fin.ext (by
    match a with
    | ⟨0, _⟩ => exact lhs_down_0 _ _
    | ⟨1, _⟩ => exact (lhs_down_1 _ _).trans hk)
  have er : dot_S256x256_S256x4096_S256x4096_1_0_0_1_n_n.rhsIdx (ix2 p c) ((contrEquiv1 dot_S256x256_S256x4096_S256x4096_1_0_0_1_n_n 256 rfl rfl).symm k) = ix2 k c := funext fun a => Fin.ext (by
    match a with
    | ⟨0, _⟩ => exact (rhs_down_0 _ _).trans hk
    | ⟨1, _⟩ => exact rhs_down_1 _ _)
  rw [el, er]

/-! ## The payloads at an entry -/

/-- The transposed gate or up weight block at `(e, j)` is the block at `(j, e)`. -/
theorem transpose_in_apply {α : Type} (w : S256x4096.Idx → α) (e : Fin 4096) (j : Fin 256) :
    transpose S4096x256 [1, 0] w transposes_S256x4096_p1_0_S4096x256 (ix2 e j) = w (ix2 j e) :=
  transpose_ix2_apply (a := 256) (b := 4096) w transposes_S256x4096_p1_0_S4096x256 e j

/-- The transposed down-weight block at `(j, c)` is the block at `(c, j)`. -/
theorem transpose_down_apply {α : Type} (w : S4096x256.Idx → α) (j : Fin 256) (c : Fin 4096) :
    transpose S256x4096 [1, 0] w transposes_S4096x256_p1_0_S256x4096 (ix2 j c) = w (ix2 c j) :=
  transpose_ix2_apply (a := 4096) (b := 256) w transposes_S4096x256_p1_0_S256x4096 j c

/-- The logistic operation acts entry by entry. -/
theorem logistic_apply {s : Shape} {φ : FTy} (x : FVec Ideal s φ) (i : s.Idx) : logistic x i = Ideal.logistic (x i) := rfl

/-- A block's linear pre-activation: row `p` of the input block against row `j` of a weight block, plus entry `j`
    of the bias block's one row. -/
def blockLin (xb wb : S256x4096.Idx → EReal) (bb : S1x256.Idx → EReal) (p j : Fin 256) : EReal :=
  (∑ e : Fin 4096, xb (ix2 p e) * wb (ix2 j e)) + bb (ix2 (0 : Fin 1) j)

/-- One accumulation step at `(p, c)`: the accumulator's entry plus the block's 256 gated activations of row `p`
    against row `c` of the down-weight block. -/
theorem step_apply (xb wgb wub : Vec Ideal S256x4096 .bf16) (bgb bub : Vec Ideal S1x256 .f32)
    (wdb : Vec Ideal S4096x256 .bf16) (acc : Vec Ideal S256x4096 .f32) (p : Fin 256) (c : Fin 4096) :
    k0_pay3 (F := Ideal) xb wgb wub bgb bub wdb acc (ix2 p c)
      = acc (ix2 p c) + ∑ j : Fin 256, act (blockLin xb wgb bgb p j) (blockLin xb wub bub p j) * wdb (ix2 c j) := by
  unfold k0_pay3
  simp only [shapeCast_self, addf_apply, mulf_apply, truncf_apply, prod_down_apply, prod_in_apply,
    broadcastTo_1b_ab_apply, logistic_apply]
  refine congrArg (acc (ix2 p c) + ·) (Finset.sum_congr rfl fun j _ => ?_)
  have hT : ∀ w : Vec Ideal S256x4096 .bf16,
      (∑ e : Fin 4096, xb (ix2 p e) * transpose S4096x256 [1, 0] w transposes_S256x4096_p1_0_S4096x256 (ix2 e j))
        = ∑ e : Fin 4096, xb (ix2 p e) * w (ix2 j e) :=
    fun w => Finset.sum_congr rfl fun e _ => by rw [transpose_in_apply]
  rw [transpose_down_apply, hT wgb, hT wub]
  rfl

/-- The reset's block is zero at every entry. -/
theorem reset_apply (i : S256x4096.Idx) : k0_pay2 (F := Ideal) i = 0 := by
  unfold k0_pay2
  simp only [shapeCast_self, broadcast_apply]
  exact Ideal.ofBits_zero_f32

/-- The last step's stored block at `(p, c)`: the accumulator's entry plus the output bias at `c`. -/
theorem out_apply (acc : Vec Ideal S256x4096 .f32) (bdb : Vec Ideal S1x4096 .f32) (p : Fin 256) (c : Fin 4096) :
    k0_pay1 (F := Ideal) acc bdb (ix2 p c) = acc (ix2 p c) + bdb (ix2 (0 : Fin 1) c) := by
  unfold k0_pay1
  simp only [shapeCast_self, addf_apply, broadcastTo_1b_ab_apply]

end Cert.KernelIdeal.Payload

end
-- ==== Proof.Pieces.lean ====
/-
  What each of the body's three control cases leaves behind, as values of the blocks it loaded.

  At the first point of a row block's run (inner coordinate 0) the body stores the zero block into the accumulator,
  reads it back and stores one accumulation step over it. At every later point it stores one accumulation step over
  what the point before left. At the run's last point (inner coordinate 42) it does the same and then stores, into
  the output's block, the accumulator it has just written plus the output bias row. Each store covers its whole
  buffer, so what a buffer holds afterwards is the last store's value; a load after a covering store reads that value.
-/
import proofs.«177315_j27573690040806_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point that is not the last: the accumulator `acc` becomes one step over it. -/
theorem acc_B (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .f32) (harg10 : arg10.IsWhole) (hc0 : ¬cond0_0 i) (hc1 : ¬cond0_1 i)
    (x0 : Vec F S256x4096 .bf16) (x1 : Vec F S256x4096 .bf16) (x2 : Vec F S1x256 .f32) (x3 : Vec F S256x4096 .bf16) (x4 : Vec F S1x256 .f32) (x5 : Vec F S4096x256 .bf16) (x6 : Vec F S1x4096 .f32) (acc : Vec F S256x4096 .f32) :
    sout0_B_0 c i arg2 harg2 arg3 harg3 arg4 harg4 arg5 harg5 arg6 harg6 arg7 harg7 arg8 harg8 arg9 harg9 arg10 harg10 hc0 hc1 x0 x1 x2 x3 x4 x5 x6 acc = k0_pay3 x0 x1 x3 x2 x4 x5 acc := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 acc)]
  unfold kernelRun0_B
  dsimp only
  rw [View.canon_unit_zero hz]
  simp only [View.readAt_eq_ld, harg2.read_unread, harg3.read_unread, harg4.read_unread, harg5.read_unread, harg6.read_unread, harg7.read_unread, harg8.read_unread, harg10.read_unread, View.ld_unit_zero (S := S256x4096) hz, View.ld_unit_zero (S := S1x256) hz, View.ld_unit_zero (S := S4096x256) hz, View.ld_unit_zero (S := S1x4096) hz]

/-- The first point: the accumulator becomes one step over the zero block the reset stored. -/
theorem acc_A (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .f32) (harg10 : arg10.IsWhole) (hc0 : cond0_0 i) (hc1 : ¬cond0_1 i)
    (x0 : Vec F S256x4096 .bf16) (x1 : Vec F S256x4096 .bf16) (x2 : Vec F S1x256 .f32) (x3 : Vec F S256x4096 .bf16) (x4 : Vec F S1x256 .f32) (x5 : Vec F S4096x256 .bf16) (x6 : Vec F S1x4096 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay3 x0 x1 x3 x2 x4 x5 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S256x4096) hz]
  simp only [View.readAt_eq_ld, harg2.read_unread, harg3.read_unread, harg4.read_unread, harg5.read_unread, harg6.read_unread, harg7.read_unread, harg8.read_unread, harg10.read_unread, View.ld_unit_zero (S := S256x4096) hz, View.ld_unit_zero (S := S1x256) hz, View.ld_unit_zero (S := S4096x256) hz, View.ld_unit_zero (S := S1x4096) hz, View.readCov_unit_zero (S := S256x4096) _ hz]

/-- The last point, the accumulator: one step over what the point before left. -/
theorem acc_C (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .f32) (harg10 : arg10.IsWhole) (hc0 : ¬cond0_0 i) (hc1 : cond0_1 i)
    (x0 : Vec F S256x4096 .bf16) (x1 : Vec F S256x4096 .bf16) (x2 : Vec F S1x256 .f32) (x3 : Vec F S256x4096 .bf16) (x4 : Vec F S1x256 .f32) (x5 : Vec F S4096x256 .bf16) (x6 : Vec F S1x4096 .f32) (acc : Vec F S256x4096 .f32) :
    sout0_C_0 c i arg2 harg2 arg3 harg3 arg4 harg4 arg5 harg5 arg6 harg6 arg7 harg7 arg8 harg8 arg9 harg9 arg10 harg10 hc0 hc1 x0 x1 x2 x3 x4 x5 x6 acc = k0_pay3 x0 x1 x3 x2 x4 x5 acc := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 acc)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S256x4096) hz, View.ld_unit_zero (S := S1x256) hz, View.ld_unit_zero (S := S4096x256) hz, View.ld_unit_zero (S := S1x4096) hz]

/-- The last point, the output's block: that accumulator plus the output bias row. -/
theorem out_C (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .f32) (harg10 : arg10.IsWhole) (hc0 : ¬cond0_0 i) (hc1 : cond0_1 i)
    (x0 : Vec F S256x4096 .bf16) (x1 : Vec F S256x4096 .bf16) (x2 : Vec F S1x256 .f32) (x3 : Vec F S256x4096 .bf16) (x4 : Vec F S1x256 .f32) (x5 : Vec F S4096x256 .bf16) (x6 : Vec F S1x4096 .f32) (acc : Vec F S256x4096 .f32) :
    out0_C_7 c i arg2 harg2 arg3 harg3 arg4 harg4 arg5 harg5 arg6 harg6 arg7 harg7 arg8 harg8 arg9 harg9 arg10 harg10 hc0 hc1 x0 x1 x2 x3 x4 x5 x6 acc = k0_pay1 (k0_pay3 x0 x1 x3 x2 x4 x5 acc) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 acc)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S256x4096) hz, View.ld_unit_zero (S := S1x256) hz, View.ld_unit_zero (S := S4096x256) hz, View.ld_unit_zero (S := S1x4096) hz, View.readCov_unit_zero (S := S256x4096) _ hz]

end Cert.KernelIdeal.Pieces

end
-- ==== Proof.Accumulate.lean ====
/-
  The accumulator, point by point.

  Grid point `t` has row block `t / 43` and unit block `t % 43`. Its input block holds rows `256 (t / 43) + p` of the
  flattened input; its weight, bias and down-weight blocks hold units `256 (t % 43) + j`. One accumulation step at
  `t` therefore adds, to entry `(p, h)` of the accumulator, the contributions of the 256 units of block `t % 43` to
  row `256 (t / 43) + p` and column `h` of the result. The run of a row block starts by resetting the accumulator, so
  after point `t` the accumulator holds the sum of the first `t % 43 + 1` unit blocks, and at the run's last point the
  stored output block is the sum over all 11008 units plus the output bias.
-/
import proofs.«177315_j27573690040806_1_alg».proof.Proof.Gen.KernelIdeal.Frame
import proofs.«177315_j27573690040806_1_alg».proof.Proof.Spec
import proofs.«177315_j27573690040806_1_alg».proof.Proof.Payload
import proofs.«177315_j27573690040806_1_alg».proof.Proof.Pieces

noncomputable section

open scoped BigOperators
open Idealize.ShloMosaic Idealize.ShloMosaic.TcCoe Idealize.SL.Sem Idealize.ShloMosaic.ValueIdx

namespace Cert.KernelIdeal.Accumulate

open Cert.KernelIdeal Cert.KernelIdeal.Gen Cert.SwiGlu Cert.KernelIdeal.Payload

variable (m : (ℓ : Loc nD τ sig) → Buf (Elt Ideal) ℓ)

/-! ## The region's arrays, and one unit's contribution over them -/

abbrev xArr (c : Dev nD) : S4096x4096.Idx → EReal := V m c main_call0_v1
abbrev wgArr (c : Dev nD) : S11008x4096.Idx → EReal := V m c main_call0_v2
abbrev bgArr (c : Dev nD) : S1x11008.Idx → EReal := V m c main_call0_v5
abbrev wuArr (c : Dev nD) : S11008x4096.Idx → EReal := V m c main_call0_v3
abbrev buArr (c : Dev nD) : S1x11008.Idx → EReal := V m c main_call0_v6
abbrev wdArr (c : Dev nD) : S4096x11008.Idx → EReal := V m c main_call0_v4
abbrev bdArr (c : Dev nD) : S1x4096.Idx → EReal := V m c main_call0_v7

/-- A linear pre-activation over the flattened arrays: flat row `r` against unit `u`. -/
def flatLin (X : S4096x4096.Idx → EReal) (W : S11008x4096.Idx → EReal) (B : S1x11008.Idx → EReal)
    (r : Fin 4096) (u : Fin 11008) : EReal :=
  (∑ e : Fin 4096, X (ix2 r e) * W (ix2 u e)) + B (ix2 (0 : Fin 1) u)

/-- Unit `u`'s contribution to flat row `r`, column `h` of the result. -/
def flatTerm (c : Dev nD) (r h : Fin 4096) (u : Fin 11008) : EReal :=
  act (flatLin (xArr m c) (wgArr m c) (bgArr m c) r u) (flatLin (xArr m c) (wuArr m c) (buArr m c) r u)
    * wdArr m c (ix2 h u)

/-- The flat row of entry `p` of the block at point `n`. -/
def rowOf (n : ℕ) (p : Fin 256) : Fin 4096 := ⟨(256 * (n / 43) + p.val) % 4096, Nat.mod_lt _ (by norm_num)⟩

/-- The unit of entry `j` of the block at point `n`. -/
def unitOf (n : ℕ) (j : Fin 256) : Fin 11008 := ⟨(256 * (n % 43) + j.val) % 11008, Nat.mod_lt _ (by norm_num)⟩

theorem ext_unit (f : Fin 11008 → EReal) (n : ℕ) (j : Fin 256) : ext f (256 * (n % 43) + j.val) = f (unitOf n j) := by
  have hj := j.isLt
  rw [ext_of_lt f _ (by omega)]
  exact congrArg f (Fin.ext (by show 256 * (n % 43) + j.val = (256 * (n % 43) + j.val) % 11008; omega))

/-! ## The windows' index maps over the grid -/

theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43
    ∧ win0_3.index t (0 : Fin 2) = t.val % 43 ∧ win0_3.index t (1 : Fin 2) = 0
    ∧ win0_4.index t (0 : Fin 2) = 0 ∧ win0_4.index t (1 : Fin 2) = t.val % 43
    ∧ win0_5.index t (0 : Fin 2) = 0 ∧ win0_5.index t (1 : Fin 2) = t.val % 43
    ∧ win0_6.index t (0 : Fin 2) = 0 ∧ win0_6.index t (1 : Fin 2) = 0
    ∧ win0_7.index t (0 : Fin 2) = t.val / 43 ∧ win0_7.index t (1 : Fin 2) = 0 :=
  (by decide +kernel : ∀ t : Fin grid0.N, _)

theorem lt_N (t : Fin cfg0.N) : t.val < 688 := lt_of_lt_of_eq t.isLt (show cfg0.N = 688 from N_0)

/-! ## A block's entry is the array's -/

theorem x_blk (c : Dev nD) (t : Fin cfg0.N) (p : Fin 256) (e : Fin 4096) :
    (iblk m c 0 t : Vec Ideal S256x4096 .bf16) (ix2 p e) = xArr m c (ix2 (rowOf t.val p) e) := by
  show V m c main_call0_v1 (((cfg0.win 0).blk t).view.emb (ix2 p e)) = V m c main_call0_v1 (ix2 (rowOf t.val p) e)
  refine congrArg _ (funext fun a => Fin.ext ?_)
  obtain ⟨e0, e1, -⟩ := idx_facts t
  have hN := lt_N t; have hp := p.isLt
  match a with
  | ⟨0, _⟩ => show win0_0.index t (0 : Fin 2) * 256 + 1 * p.val = (256 * (t.val / 43) + p.val) % 4096; rw [e0]; omega
  | ⟨1, _⟩ => show win0_0.index t (1 : Fin 2) * 4096 + 1 * e.val = e.val; rw [e1]; omega

theorem wg_blk (c : Dev nD) (t : Fin cfg0.N) (j : Fin 256) (e : Fin 4096) :
    (iblk m c 1 t : Vec Ideal S256x4096 .bf16) (ix2 j e) = wgArr m c (ix2 (unitOf t.val j) e) := by
  show V m c main_call0_v2 (((cfg0.win 1).blk t).view.emb (ix2 j e)) = V m c main_call0_v2 (ix2 (unitOf t.val j) e)
  refine congrArg _ (funext fun a => Fin.ext ?_)
  obtain ⟨-, -, e0, e1, -⟩ := idx_facts t
  have hj := j.isLt
  match a with
  | ⟨0, _⟩ => show win0_1.index t (0 : Fin 2) * 256 + 1 * j.val = (256 * (t.val % 43) + j.val) % 11008; rw [e0]; omega
  | ⟨1, _⟩ => show win0_1.index t (1 : Fin 2) * 4096 + 1 * e.val = e.val; rw [e1]; omega

theorem bg_blk (c : Dev nD) (t : Fin cfg0.N) (j : Fin 256) :
    (iblk m c 2 t : Vec Ideal S1x256 .f32) (ix2 (0 : Fin 1) j) = bgArr m c (ix2 (0 : Fin 1) (unitOf t.val j)) := by
  show V m c main_call0_v5 (((cfg0.win 2).blk t).view.emb (ix2 (0 : Fin 1) j)) = V m c main_call0_v5 (ix2 (0 : Fin 1) (unitOf t.val j))
  refine congrArg _ (funext fun a => Fin.ext ?_)
  obtain ⟨-, -, -, -, e0, e1, -⟩ := idx_facts t
  have hj := j.isLt
  match a with
  | ⟨0, _⟩ => show win0_2.index t (0 : Fin 2) * 1 + 1 * 0 = 0; rw [e0]
  | ⟨1, _⟩ => show win0_2.index t (1 : Fin 2) * 256 + 1 * j.val = (256 * (t.val % 43) + j.val) % 11008; rw [e1]; omega

theorem wu_blk (c : Dev nD) (t : Fin cfg0.N) (j : Fin 256) (e : Fin 4096) :
    (iblk m c 3 t : Vec Ideal S256x4096 .bf16) (ix2 j e) = wuArr m c (ix2 (unitOf t.val j) e) := by
  show V m c main_call0_v3 (((cfg0.win 3).blk t).view.emb (ix2 j e)) = V m c main_call0_v3 (ix2 (unitOf t.val j) e)
  refine congrArg _ (funext fun a => Fin.ext ?_)
  obtain ⟨-, -, -, -, -, -, e0, e1, -⟩ := idx_facts t
  have hj := j.isLt
  match a with
  | ⟨0, _⟩ => show win0_3.index t (0 : Fin 2) * 256 + 1 * j.val = (256 * (t.val % 43) + j.val) % 11008; rw [e0]; omega
  | ⟨1, _⟩ => show win0_3.index t (1 : Fin 2) * 4096 + 1 * e.val = e.val; rw [e1]; omega

theorem bu_blk (c : Dev nD) (t : Fin cfg0.N) (j : Fin 256) :
    (iblk m c 4 t : Vec Ideal S1x256 .f32) (ix2 (0 : Fin 1) j) = buArr m c (ix2 (0 : Fin 1) (unitOf t.val j)) := by
  show V m c main_call0_v6 (((cfg0.win 4).blk t).view.emb (ix2 (0 : Fin 1) j)) = V m c main_call0_v6 (ix2 (0 : Fin 1) (unitOf t.val j))
  refine congrArg _ (funext fun a => Fin.ext ?_)
  obtain ⟨-, -, -, -, -, -, -, -, e0, e1, -⟩ := idx_facts t
  have hj := j.isLt
  match a with
  | ⟨0, _⟩ => show win0_4.index t (0 : Fin 2) * 1 + 1 * 0 = 0; rw [e0]
  | ⟨1, _⟩ => show win0_4.index t (1 : Fin 2) * 256 + 1 * j.val = (256 * (t.val % 43) + j.val) % 11008; rw [e1]; omega

theorem wd_blk (c : Dev nD) (t : Fin cfg0.N) (h : Fin 4096) (j : Fin 256) :
    (iblk m c 5 t : Vec Ideal S4096x256 .bf16) (ix2 h j) = wdArr m c (ix2 h (unitOf t.val j)) := by
  show V m c main_call0_v4 (((cfg0.win 5).blk t).view.emb (ix2 h j)) = V m c main_call0_v4 (ix2 h (unitOf t.val j))
  refine congrArg _ (funext fun a => Fin.ext ?_)
  obtain ⟨-, -, -, -, -, -, -, -, -, -, e0, e1, -⟩ := idx_facts t
  have hj := j.isLt
  match a with
  | ⟨0, _⟩ => show win0_5.index t (0 : Fin 2) * 4096 + 1 * h.val = h.val; rw [e0]; omega
  | ⟨1, _⟩ => show win0_5.index t (1 : Fin 2) * 256 + 1 * j.val = (256 * (t.val % 43) + j.val) % 11008; rw [e1]; omega

theorem bd_blk (c : Dev nD) (t : Fin cfg0.N) (h : Fin 4096) :
    (iblk m c 6 t : Vec Ideal S1x4096 .f32) (ix2 (0 : Fin 1) h) = bdArr m c (ix2 (0 : Fin 1) h) := by
  show V m c main_call0_v7 (((cfg0.win 6).blk t).view.emb (ix2 (0 : Fin 1) h)) = V m c main_call0_v7 (ix2 (0 : Fin 1) h)
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * 0 = 0; rw [e0]
  | ⟨1, _⟩ => show win0_6.index t (1 : Fin 2) * 4096 + 1 * h.val = h.val; rw [e1]; omega

/-! ## One accumulation step at a point -/

/-- At point `t` a step adds, to the accumulator's entry `(p, h)`, the contributions of the units of block `t % 43`
    to flat row `rowOf t p`, column `h`. -/
theorem step_at (c : Dev nD) (t : Fin cfg0.N) (acc : Vec Ideal S256x4096 .f32) (p : Fin 256) (h : Fin 4096) :
    k0_pay3 (F := Ideal) (iblk m c 0 t) (iblk m c 1 t) (iblk m c 3 t) (iblk m c 2 t) (iblk m c 4 t) (iblk m c 5 t) acc (ix2 p h)
      = acc (ix2 p h) + ∑ j : Fin 256, ext (flatTerm m c (rowOf t.val p) h) (256 * (t.val % 43) + j.val) := by
  refine (step_apply (iblk m c 0 t) (iblk m c 1 t) (iblk m c 3 t) (iblk m c 2 t) (iblk m c 4 t) (iblk m c 5 t) acc p h).trans ?_
  refine congrArg (acc (ix2 p h) + ·) (Finset.sum_congr rfl fun j _ => ?_)
  rw [ext_unit]
  unfold flatTerm flatLin blockLin
  simp only [x_blk, wg_blk, bg_blk, wu_blk, bu_blk, wd_blk]

/-! ## The accumulator after each point -/

/-- The first point of a row block's run. -/
theorem scratch_A (c : Dev nD) (t : Fin cfg0.N) (h0 : t.val % 43 = 0) (h1 : ¬t.val % 43 = 42) (p : Fin 256) (h : Fin 4096) :
    (outsAt0 m c t.val t.isLt).2 (ix2 p h)
      = ∑ j : Fin 256, ext (flatTerm m c (rowOf t.val p) h) (256 * (t.val % 43) + j.val) := by
  rw [outsAt0_A m c t h0 h1]
  dsimp only
  refine (congrFun (Pieces.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p h)).trans ?_
  rw [step_at m c t _ p h, reset_apply, zero_add]

/-- A later point that is not the last. -/
theorem scratch_B (c : Dev nD) (t : Fin cfg0.N) (h0 : ¬t.val % 43 = 0) (h1 : ¬t.val % 43 = 42) (p : Fin 256) (h : Fin 4096) :
    (outsAt0 m c t.val t.isLt).2 (ix2 p h)
      = (outsAt0 m c (t.val - 1) (Nat.lt_of_le_of_lt (Nat.sub_le _ _) t.isLt)).2 (ix2 p h)
        + ∑ j : Fin 256, ext (flatTerm m c (rowOf t.val p) h) (256 * (t.val % 43) + j.val) := by
  rw [outsAt0_B m c t h0 h1]
  dsimp only
  refine (congrFun (Pieces.acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p h)).trans ?_
  exact step_at m c t _ p h

/-- The last point of a row block's run: the accumulator. -/
theorem scratch_C (c : Dev nD) (t : Fin cfg0.N) (h0 : ¬t.val % 43 = 0) (h1 : t.val % 43 = 42) (p : Fin 256) (h : Fin 4096) :
    (outsAt0 m c t.val t.isLt).2 (ix2 p h)
      = (outsAt0 m c (t.val - 1) (Nat.lt_of_le_of_lt (Nat.sub_le _ _) t.isLt)).2 (ix2 p h)
        + ∑ j : Fin 256, ext (flatTerm m c (rowOf t.val p) h) (256 * (t.val % 43) + j.val) := by
  rw [outsAt0_C m c t h0 h1]
  dsimp only
  refine (congrFun (Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p h)).trans ?_
  exact step_at m c t _ p h

/-- The last point of a row block's run: the output's block is the accumulator plus the output bias. -/
theorem out_C (c : Dev nD) (t : Fin cfg0.N) (h0 : ¬t.val % 43 = 0) (h1 : t.val % 43 = 42) (p : Fin 256) (h : Fin 4096) :
    (outsAt0 m c t.val t.isLt).1 (ix2 p h)
      = (outsAt0 m c t.val t.isLt).2 (ix2 p h) + bdArr m c (ix2 (0 : Fin 1) h) := by
  rw [outsAt0_C m c t h0 h1]
  dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
    Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
    out_apply, bd_blk]

/-- After point `n` the accumulator's entry `(p, h)` holds the first `n % 43 + 1` unit blocks' contributions to flat
    row `rowOf n p`, column `h`. -/
theorem scratch_eq (c : Dev nD) : ∀ (n : ℕ) (hn : n < cfg0.N) (p : Fin 256) (h : Fin 4096),
    (outsAt0 m c n hn).2 (ix2 p h) = firstBlocks (flatTerm m c (rowOf n p) h) (n % 43 + 1)
  | 0, hn, p, h => by
    rw [scratch_A m c ⟨0, hn⟩ rfl (by show ¬(0 % 43 = 42); decide) p h]
    show _ = firstBlocks _ (0 + 1)
    rw [firstBlocks_succ, firstBlocks_zero, zero_add]
    rfl
  | n + 1, hn, p, h => by
    have hN : n + 1 < 688 := lt_of_lt_of_eq hn (show cfg0.N = 688 from N_0)
    by_cases h0 : (n + 1) % 43 = 0
    · have h1 : ¬(n + 1) % 43 = 42 := by omega
      rw [scratch_A m c ⟨n + 1, hn⟩ h0 h1 p h]
      show ∑ j : Fin 256, ext (flatTerm m c (rowOf (n + 1) p) h) (256 * ((n + 1) % 43) + j.val) = _
      rw [h0, firstBlocks_succ, firstBlocks_zero, zero_add]
    · have ih := scratch_eq c n (Nat.lt_of_succ_lt hn) p h
      have e1 : rowOf (n + 1) p = rowOf n p := Fin.ext (by
        show (256 * ((n + 1) / 43) + p.val) % 4096 = (256 * (n / 43) + p.val) % 4096
        have : (n + 1) / 43 = n / 43 := by omega
        rw [this])
      have e2 : (n + 1) % 43 = n % 43 + 1 := by omega
      have hstep : (outsAt0 m c (n + 1) hn).2 (ix2 p h)
          = (outsAt0 m c n (Nat.lt_of_succ_lt hn)).2 (ix2 p h)
            + ∑ j : Fin 256, ext (flatTerm m c (rowOf (n + 1) p) h) (256 * ((n + 1) % 43) + j.val) := by
        by_cases h1 : (n + 1) % 43 = 42
        · exact scratch_C m c ⟨n + 1, hn⟩ h0 h1 p h
        · exact scratch_B m c ⟨n + 1, hn⟩ h0 h1 p h
      rw [hstep, ih, e1, e2]
      exact (firstBlocks_succ _ _).symm

/-! ## The output block at a run's last point -/

/-- At the last point of row block `t / 43`'s run the stored output block's entry `(p, h)` is the sum over all units
    of their contributions to flat row `rowOf t p`, column `h`, plus the output bias at `h`. -/
theorem out_eq (c : Dev nD) (t : Fin cfg0.N) (h1 : t.val % 43 = 42) (p : Fin 256) (h : Fin 4096) :
    (outsAt0 m c t.val t.isLt).1 (ix2 p h)
      = (∑ u : Fin 11008, flatTerm m c (rowOf t.val p) h u) + bdArr m c (ix2 (0 : Fin 1) h) := by
  have h0 : ¬t.val % 43 = 0 := by omega
  rw [out_C m c t h0 h1 p h, scratch_eq m c t.val t.isLt p h, h1]
  show firstBlocks _ 43 + _ = _
  rw [firstBlocks_all]

end Cert.KernelIdeal.Accumulate

end
-- ==== Proof.Arrays.lean ====
/-
  What the region's input arrays hold, in terms of the program's arguments.

  Before the region the program flattens the input `[2, 2048, 4096]` to `[4096, 4096]` (row `2048 b + s` of the
  flat array is row `(b, s)` of the input: the same row-major position), gives each bias vector `[n]` a leading
  unit axis, and changes the float format of the input and of the three weights, which is the identity on the
  extended reals.
-/
import proofs.«177315_j27573690040806_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Arrays

open Cert.KernelIdeal Cert.KernelIdeal.Gen

variable (m : (ℓ : Loc nD τ sig) → Buf (Elt Ideal) ℓ)

/-- Row `(b, s)` of the input is row `2048 b + s` of the flattened input. -/
abbrev flatRow (b : Fin 2) (s : Fin 2048) : Fin 4096 :=
  ⟨2048 * b.val + s.val, by have := b.isLt; have := s.isLt; omega⟩

/-- The flattened input at `(2048 b + s, e)` is the input at `(b, s, e)`. -/
theorem x_apply (c : Dev nD) (b : Fin 2) (s : Fin 2048) (e : Fin 4096) :
    (V m c main_call0_v1 : Vec Ideal S4096x4096 .bf16) (ix2 (flatRow b s) e)
      = (m ((c : Thread nD τ).loc main_arg0) : Vec Ideal S2x2048x4096 .f32) (ix3 b s e) := by
  have hV : (V m c main_call0_v1 : Vec Ideal S4096x4096 .bf16)
      = truncf (F := Ideal) .bf16 (shapeCast S4096x4096 (m ((c : Thread nD τ).loc main_arg0)) shapeCasts_S2x2048x4096_S4096x4096) bitsLt_bf16_f32 := by
    show StableHlo.after hostOps0 (fun b => m (c, b)) (Proc.devRef .tc main_call0_v1) = _
    after_results
    rfl
  rw [hV, truncf_apply]
  refine shapeCast_apply _ _ _ (ix3 b s e) ?_
  rw [Shape.rowMajor_val_three, Shape.rowMajor_val_two]
  show (b.val * 2048 + s.val) * 4096 + e.val = (2048 * b.val + s.val) * 4096 + e.val
  omega

/-- The gate weight as the region finds it is the argument. -/
theorem wg_apply (c : Dev nD) (i : S11008x4096.Idx) :
    (V m c main_call0_v2 : Vec Ideal S11008x4096 .bf16) i = (m ((c : Thread nD τ).loc main_arg1) : Vec Ideal S11008x4096 .f32) i := by
  have hV : (V m c main_call0_v2 : Vec Ideal S11008x4096 .bf16)
      = truncf (F := Ideal) .bf16 (m ((c : Thread nD τ).loc main_arg1) : Vec Ideal S11008x4096 .f32) bitsLt_bf16_f32 := by
    show StableHlo.after hostOps0 (fun b => m (c, b)) (Proc.devRef .tc main_call0_v2) = _
    after_results
    rfl
  rw [hV, truncf_apply]

/-- The up weight as the region finds it is the argument. -/
theorem wu_apply (c : Dev nD) (i : S11008x4096.Idx) :
    (V m c main_call0_v3 : Vec Ideal S11008x4096 .bf16) i = (m ((c : Thread nD τ).loc main_arg3) : Vec Ideal S11008x4096 .f32) i := by
  have hV : (V m c main_call0_v3 : Vec Ideal S11008x4096 .bf16)
      = truncf (F := Ideal) .bf16 (m ((c : Thread nD τ).loc main_arg3) : Vec Ideal S11008x4096 .f32) bitsLt_bf16_f32 := by
    show StableHlo.after hostOps0 (fun b => m (c, b)) (Proc.devRef .tc main_call0_v3) = _
    after_results
    rfl
  rw [hV, truncf_apply]

/-- The down weight as the region finds it is the argument. -/
theorem wd_apply (c : Dev nD) (i : S4096x11008.Idx) :
    (V m c main_call0_v4 : Vec Ideal S4096x11008 .bf16) i = (m ((c : Thread nD τ).loc main_arg5) : Vec Ideal S4096x11008 .f32) i := by
  have hV : (V m c main_call0_v4 : Vec Ideal S4096x11008 .bf16)
      = truncf (F := Ideal) .bf16 (m ((c : Thread nD τ).loc main_arg5) : Vec Ideal S4096x11008 .f32) bitsLt_bf16_f32 := by
    show StableHlo.after hostOps0 (fun b => m (c, b)) (Proc.devRef .tc main_call0_v4) = _
    after_results
    rfl
  rw [hV, truncf_apply]

/-- The gate bias row at `(0, u)` is the bias at `u`. -/
theorem bg_apply (c : Dev nD) (u : Fin 11008) :
    (V m c main_call0_v5 : Vec Ideal S1x11008 .f32) (ix2 (0 : Fin 1) u) = (m ((c : Thread nD τ).loc main_arg2) : Vec Ideal S11008 .f32) (ix1 u) := by
  have hV : (V m c main_call0_v5 : Vec Ideal S1x11008 .f32)
      = shapeCast S1x11008 (m ((c : Thread nD τ).loc main_arg2) : Vec Ideal S11008 .f32) shapeCasts_S11008_S1x11008 := by
    show StableHlo.after hostOps0 (fun b => m (c, b)) (Proc.devRef .tc main_call0_v5) = _
    after_results
    rfl
  rw [hV]
  exact shapeCast_a_1a_apply (a := 11008) _ shapeCasts_S11008_S1x11008 0 u

/-- The up bias row at `(0, u)` is the bias at `u`. -/
theorem bu_apply (c : Dev nD) (u : Fin 11008) :
    (V m c main_call0_v6 : Vec Ideal S1x11008 .f32) (ix2 (0 : Fin 1) u) = (m ((c : Thread nD τ).loc main_arg4) : Vec Ideal S11008 .f32) (ix1 u) := by
  have hV : (V m c main_call0_v6 : Vec Ideal S1x11008 .f32)
      = shapeCast S1x11008 (m ((c : Thread nD τ).loc main_arg4) : Vec Ideal S11008 .f32) shapeCasts_S11008_S1x11008 := by
    show StableHlo.after hostOps0 (fun b => m (c, b)) (Proc.devRef .tc main_call0_v6) = _
    after_results
    rfl
  rw [hV]
  exact shapeCast_a_1a_apply (a := 11008) _ shapeCasts_S11008_S1x11008 0 u

/-- The output bias row at `(0, h)` is the bias at `h`. -/
theorem bd_apply (c : Dev nD) (h : Fin 4096) :
    (V m c main_call0_v7 : Vec Ideal S1x4096 .f32) (ix2 (0 : Fin 1) h) = (m ((c : Thread nD τ).loc main_arg6) : Vec Ideal S4096 .f32) (ix1 h) := by
  have hV : (V m c main_call0_v7 : Vec Ideal S1x4096 .f32)
      = shapeCast S1x4096 (m ((c : Thread nD τ).loc main_arg6) : Vec Ideal S4096 .f32) shapeCasts_S4096_S1x4096 := by
    show StableHlo.after hostOps0 (fun b => m (c, b)) (Proc.devRef .tc main_call0_v7) = _
    after_results
    rfl
  rw [hV]
  exact shapeCast_a_1a_apply (a := 4096) _ shapeCasts_S4096_S1x4096 0 h

end Cert.KernelIdeal.Arrays

end
-- ==== Proof.KernelValue.lean ====
/-
  The kernel's result array.

  The output window is written back only at the last point of each row block's run; what it writes there is the
  block of rows `256 i .. 256 i + 255` of one flat function: at `(r, h)` the sum over all 11008 units of their
  contributions to flat row `r`, column `h`, plus the output bias at `h`. Row `r` lies in the block written at point
  `43 (r / 256) + 42`, so the sixteen written blocks cover the flat output array, which therefore ends holding that
  function. After the region the program reshapes `[4096, 4096]` back to `[2, 2048, 4096]`; flat row `2048 b + s` is
  row `(b, s)`, and over the program's arguments the flat function at that row is the gated feed-forward block of the
  specification.
-/
import proofs.«177315_j27573690040806_1_alg».proof.Proof.Accumulate
import proofs.«177315_j27573690040806_1_alg».proof.Proof.Arrays
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.SwiGlu Cert.KernelIdeal.Accumulate Cert.KernelIdeal.Arrays

variable (m : (ℓ : Loc nD τ sig) → Buf (Elt Ideal) ℓ) (ρ : Dev nD → PrngReg)

/-- The flat result: at `(r, h)` all units' contributions to flat row `r`, column `h`, plus the output bias. -/
def flatOut (c : Dev nD) : S4096x4096.Idx → EReal := fun i =>
  (∑ u : Fin 11008, flatTerm m c ⟨(i 0).val, (i 0).isLt⟩ ⟨(i 1).val, (i 1).isLt⟩ u)
    + bdArr m c (ix2 (0 : Fin 1) ⟨(i 1).val, (i 1).isLt⟩)

/-! ## What a write-back writes, and which rows it covers -/

/-- At a point that writes back, the written block is the flat result read through the point's block. -/
theorem flushed_eq (c : Dev nD) (t : Fin cfg0.N) (hf : (cfg0.win 7).flush t = true) :
    (dats m 0 c).flushed 7 t = ((cfg0.win 7).blk t).view.read (Elt Ideal) (flatOut m c) := by
  have h1 : t.val % 43 = 42 := (flush0_7 t).mp hf
  show (cfg0.win 7).cut (grid0.coords t) ((dats m 0 c).after 7 t) = _
  rw [after0_7]
  funext y
  obtain ⟨p, h, rfl⟩ : ∃ (p : Fin 256) (h : Fin 4096), y = ix2 p h := ⟨y 0, y 1, eq_ix2 (n0 := 256) (n1 := 4096) y⟩
  show (outsAt0 m c t.val t.isLt).1 (ix2 p h) = flatOut m c (((cfg0.win 7).blk t).view.emb (ix2 p h))
  have hemb : ((cfg0.win 7).blk t).view.emb (ix2 p h) = ix2 (rowOf t.val p) h := funext fun a => Fin.ext (by
    obtain ⟨-, -, -, -, -, -, -, -, -, -, -, -, -, -, e0, e1⟩ := idx_facts t
    have hN := lt_N t; have hp := p.isLt
    match a with
    | ⟨0, _⟩ => show win0_7.index t (0 : Fin 2) * 256 + 1 * p.val = (256 * (t.val / 43) + p.val) % 4096; rw [e0]; omega
    | ⟨1, _⟩ => show win0_7.index t (1 : Fin 2) * 4096 + 1 * h.val = h.val; rw [e1]; omega)
  rw [hemb, out_eq m c t h1 p h]
  rfl

/-- An index of the flat output array is in point `t`'s block iff each coordinate is in the block's range. -/
theorem mem_blk (t : Fin cfg0.N) (i : S4096x4096.Idx) :
    i ∈ ((cfg0.win 7).blk t).view.set ↔ ∀ a : Fin 2, win0_7.index t a * S256x4096.size a ≤ (i a).val ∧ (i a).val < win0_7.index t a * S256x4096.size a + S256x4096.size a := by
  show i ∈ ((View.whole main_call0_v8).slice (win0_7.rect t)).set ↔ _
  rw [View.set_slice_whole, Rect.mem_set_unit]
  exact Iff.rfl

/-- Every index of the flat output array is in the block some write-back writes: row `r` at point `43 (r / 256) + 42`. -/
theorem cover (i : S4096x4096.Idx) :
    ∃ t : Fin cfg0.N, (cfg0.win 7).flush t = true ∧ i ∈ ((cfg0.win 7).blk t).view.set := by
  have hi0 : (i 0).val < 4096 := (i 0).isLt
  have hi1 : (i 1).val < 4096 := (i 1).isLt
  obtain ⟨t, ht⟩ : ∃ t : Fin cfg0.N, t.val = 43 * ((i 0).val / 256) + 42 :=
    ⟨⟨43 * ((i 0).val / 256) + 42, by rw [show cfg0.N = 688 from N_0]; omega⟩, rfl⟩
  refine ⟨t, (flush0_7 t).mpr (by omega), ?_⟩
  rw [mem_blk]
  obtain ⟨-, -, -, -, -, -, -, -, -, -, -, -, -, -, e0, e1⟩ := idx_facts t
  intro a
  match a with
  | ⟨0, _⟩ => show win0_7.index t (0 : Fin 2) * 256 ≤ (i 0).val ∧ (i 0).val < win0_7.index t (0 : Fin 2) * 256 + 256; rw [e0]; omega
  | ⟨1, _⟩ => show win0_7.index t (1 : Fin 2) * 4096 ≤ (i 1).val ∧ (i 1).val < win0_7.index t (1 : Fin 2) * 4096 + 4096; rw [e1]; omega

/-- The flat output array after the run holds the flat result. -/
theorem final (c : Dev nD) : (dats m 0 c).arrAt 7 cfg0.N = flatOut m c :=
  (dats m 0 c).arrAt_eq_of_cover 7 (flatOut m c) (fun t hf => flushed_eq m c t hf) cover

/-! ## The reshape after the region -/

/-- The program's result buffer after the host tail: the flat result reshaped to `[2, 2048, 4096]`. -/
theorem tail_eq (c : Dev nD) :
    Pipeline.afterTail₀ cfgs (dats m) 0 (V0 m) [hostOps1] c main_v0
      = shapeCast S2x2048x4096 (flatOut m c) shapeCasts_S4096x4096_S2x2048x4096 := by
  unfold Pipeline.afterTail₀
  show StableHlo.after hostOps1 _ (Proc.devRef .tc main_v0) = _
  after_results
  exact congrArg (fun a => shapeCast S2x2048x4096 a shapeCasts_S4096x4096_S2x2048x4096)
    ((Pipeline.withArrays_arr spec0 launch0.win.arr_inj c _ _ 7).trans (final m c))

/-! ## The flat result over the program's arguments -/

/-- The flat result reshaped is the specification's function of the seven arguments. -/
theorem result_eq (c : Dev nD) :
    shapeCast S2x2048x4096 (flatOut m c) shapeCasts_S4096x4096_S2x2048x4096
      = mlp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext j
  obtain ⟨b, s, h, rfl⟩ : ∃ (b : Fin 2) (s : Fin 2048) (h : Fin 4096), j = ix3 b s h := ⟨j 0, j 1, j 2, eq_ix3 j⟩
  rw [shapeCast_apply (flatOut m c) shapeCasts_S4096x4096_S2x2048x4096 (ix3 b s h) (ix2 (flatRow b s) h) (by
    rw [Shape.rowMajor_val_three, Shape.rowMajor_val_two]
    show (2048 * b.val + s.val) * 4096 + h.val = (b.val * 2048 + s.val) * 4096 + h.val
    omega)]
  have hlin : ∀ (W : S11008x4096.Idx → EReal) (B : S1x11008.Idx → EReal) (w : S11008x4096.Idx → EReal) (β : S11008.Idx → EReal)
      (hW : ∀ i, W i = w i) (hB : ∀ u : Fin 11008, B (ix2 (0 : Fin 1) u) = β (ix1 u)) (u : Fin 11008),
      flatLin (xArr m c) W B (flatRow b s) u = lin (m ((c : Thread nD τ).loc main_arg0)) w β b s u := by
    intro W B w β hW hB u
    unfold flatLin lin
    rw [hB u]
    exact congrArg (· + β (ix1 u)) (Finset.sum_congr rfl fun e _ => by rw [hW]; exact congrArg (· * w (ix2 u e)) (x_apply m c b s e))
  show (∑ u : Fin 11008, flatTerm m c (flatRow b s) h u) + bdArr m c (ix2 (0 : Fin 1) h) = _
  unfold mlp downTerm hid flatTerm
  rw [show bdArr m c (ix2 (0 : Fin 1) h) = m ((c : Thread nD τ).loc main_arg6) (ix1 h) from bd_apply m c h]
  refine congrArg (· + m ((c : Thread nD τ).loc main_arg6) (ix1 h)) (Finset.sum_congr rfl fun u _ => ?_)
  rw [hlin (wgArr m c) (bgArr m c) _ _ (wg_apply m c) (bg_apply m c) u,
    hlin (wuArr m c) (buArr m c) _ _ (wu_apply m c) (bu_apply m c) u,
    show wdArr m c (ix2 h u) = m ((c : Thread nD τ).loc main_arg5) (ix2 h u) from wd_apply m c _]

/-! ## The run, read -/

/-- Every weakly fair execution of the program terminates with its result buffer at the specification's function of
    the arguments, the arguments unchanged. -/
theorem run : θ_run defs (onTc (τ := τ) (main (F := Ideal))) ⟨m, fun _ => 0, ρ⟩ fun r => ∀ c : Dev nD,
      r.2.mem ((c.tc : Thread nD τ).loc main_v0)
        = mlp (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v0 (Pipeline.mem_restRefs_of main_v0 (by decide) (by decide))).trans (tail_eq m c)).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KernelValue

end
-- ==== Proof.RefValue.lean ====
/-
  The reference, read index by index, is the gated feed-forward block of the specification.

  Its two first contractions are the linear pre-activations of row `(b, s)` against unit `u` (a contraction of the
  last axis of `x` with the last axis of the weight, the bias broadcast along the rows); its `silu` is spelled
  `g * (1 / (1 + exp (-g)))`, which is `g * σ g` since the word `1.0` denotes the extended real one and the logistic
  function is that expression by definition; the last contraction sums the gated activation times the down weight
  over all 11008 units at once, and the output bias is broadcast along the rows.
-/
import proofs.«177315_j27573690040806_1_alg».proof.Proof.Gen.ReferenceIdeal.Read
import proofs.«177315_j27573690040806_1_alg».proof.Proof.Spec
import Idealize.ShloMosaic.Lib.IdealHost

noncomputable section

open scoped BigOperators
open Idealize.ShloMosaic Idealize.ShloMosaic.ValueIdx

namespace Cert.ReferenceIdeal.RefValue

open Cert.ReferenceIdeal Cert.ReferenceIdeal.Read Cert.SwiGlu

variable (x : (⟨S2x2048x4096, .f32⟩ : BufTy).Contents (Elt Ideal))
  (wg : (⟨S11008x4096, .f32⟩ : BufTy).Contents (Elt Ideal)) (bg : (⟨S11008, .f32⟩ : BufTy).Contents (Elt Ideal))
  (wu : (⟨S11008x4096, .f32⟩ : BufTy).Contents (Elt Ideal)) (bu : (⟨S11008, .f32⟩ : BufTy).Contents (Elt Ideal))
  (wd : (⟨S4096x11008, .f32⟩ : BufTy).Contents (Elt Ideal)) (bd : (⟨S4096, .f32⟩ : BufTy).Contents (Elt Ideal))

/-- The gate's pre-activation at row `(b, s)`, unit `u`. -/
theorem gate_lin (b : Fin 2) (s : Fin 2048) (u : Fin 11008) :
    val_main_v3 (F := Ideal) x wg bg (ix3 b s u) = lin x wg bg b s u := by
  rw [val_main_v3_apply, val_main_v0_apply, val_main_v2_apply, val_main_v1_apply]
  have el : ∀ k : Fin 4096, lidx_main_v0 (ix3 b s u) k = ix3 b s k := fun k => funext fun a => by
    match a with | ⟨0, _⟩ => rfl | ⟨1, _⟩ => rfl | ⟨2, _⟩ => rfl
  have er : ∀ k : Fin 4096, ridx_main_v0 (ix3 b s u) k = ix2 u k := fun k => funext fun a => by
    match a with | ⟨0, _⟩ => rfl | ⟨1, _⟩ => rfl
  have eb : idx_main_v1 (idx_main_v2 (ix3 b s u)) = ix1 u := funext fun a => by
    match a with | ⟨0, _⟩ => rfl
  simp only [el, er, eb, Ideal.addf_def]
  rfl

/-- The up projection's pre-activation at row `(b, s)`, unit `u`. -/
theorem up_lin (b : Fin 2) (s : Fin 2048) (u : Fin 11008) :
    val_main_v8 (F := Ideal) x wu bu (ix3 b s u) = lin x wu bu b s u := by
  rw [val_main_v8_apply, val_main_v5_apply, val_main_v7_apply, val_main_v6_apply]
  have el : ∀ k : Fin 4096, lidx_main_v5 (ix3 b s u) k = ix3 b s k := fun k => funext fun a => by
    match a with | ⟨0, _⟩ => rfl | ⟨1, _⟩ => rfl | ⟨2, _⟩ => rfl
  have er : ∀ k : Fin 4096, ridx_main_v5 (ix3 b s u) k = ix2 u k := fun k => funext fun a => by
    match a with | ⟨0, _⟩ => rfl | ⟨1, _⟩ => rfl
  have eb : idx_main_v6 (idx_main_v7 (ix3 b s u)) = ix1 u := funext fun a => by
    match a with | ⟨0, _⟩ => rfl
  simp only [el, er, eb, Ideal.addf_def]
  rfl

/-- The gated activation at row `(b, s)`, unit `u`: `g * (1 / (1 + exp (-g)))` times the up projection. -/
theorem hidden (b : Fin 2) (s : Fin 2048) (u : Fin 11008) :
    val_main_v9 (F := Ideal) x wg bg wu bu (ix3 b s u) = hid x wg bg wu bu b s u := by
  rw [val_main_v9_apply, val_main_v4_apply, val_main_call0_v5_apply, val_main_call0_v4_apply,
    val_main_call0_cst_0_apply, val_main_call0_v3_apply, val_main_call0_v2_apply, val_main_call0_cst_apply,
    val_main_call0_v1_apply, val_main_call0_v0_apply, gate_lin, up_lin]
  simp only [Ideal.mulf_def, Ideal.hostDivf_def, Ideal.addf_def, Ideal.hostUnary_exp_def, Ideal.hostNegf_def,
    Ideal.negf_def, Ideal.ofBits_def, Ideal.ofBits_one_f32, logistic_spelled]
  rfl

/-- The reference's result is the specification's function of its seven arguments. -/
theorem result_eq : val_main_v13 (F := Ideal) x wg bg wu bu wd bd = mlp x wg bg wu bu wd bd := by
  funext j
  obtain ⟨b, s, h, rfl⟩ : ∃ (b : Fin 2) (s : Fin 2048) (h : Fin 4096), j = ix3 b s h := ⟨j 0, j 1, j 2, eq_ix3 j⟩
  rw [val_main_v13_apply, val_main_v10_apply, val_main_v12_apply, val_main_v11_apply]
  have el : ∀ k : Fin 11008, lidx_main_v10 (ix3 b s h) k = ix3 b s k := fun k => funext fun a => by
    match a with | ⟨0, _⟩ => rfl | ⟨1, _⟩ => rfl | ⟨2, _⟩ => rfl
  have er : ∀ k : Fin 11008, ridx_main_v10 (ix3 b s h) k = ix2 h k := fun k => funext fun a => by
    match a with | ⟨0, _⟩ => rfl | ⟨1, _⟩ => rfl
  have eb : idx_main_v11 (idx_main_v12 (ix3 b s h)) = ix1 h := funext fun a => by
    match a with | ⟨0, _⟩ => rfl
  simp only [el, er, eb, hidden, Ideal.addf_def]
  rfl

end Cert.ReferenceIdeal.RefValue

end
-- ==== Proof.lean ====
/-
  The kernel computes a gated feed-forward block, `down (silu (gate x) * up x) + b`, 256 hidden units at a time: for
  each block of 256 rows of the flattened input it resets an accumulator, adds for each of the 43 blocks of hidden
  units the product of that block's gated activations with the matching columns of the down weight, and after the
  last block writes the accumulator plus the output bias. The reference contracts all 11008 hidden units at once.

  Over the extended reals the two are one function of the seven arguments, index by index (`Cert.SwiGlu.mlp`,
  Proof/Spec.lean). The kernel's logistic operation and the reference's `1 / (1 + exp (-g))` are the same function by
  definition, the word `1.0` denoting one; a change of float format is the identity; and a sum over the hidden units
  taken 256 at a time from zero is the whole sum, which uses only that addition on the extended reals is associative
  and commutative, so the inputs' finiteness is never needed. The kernel side is Proof/KernelValue.lean (over
  Proof/Accumulate.lean: the accumulator after each grid point), the reference side Proof/RefValue.lean.
  The idealization rewrote nothing, so `preserves` asks nothing.
-/
import proofs.«177315_j27573690040806_1_alg».proof.Defs
import proofs.«177315_j27573690040806_1_alg».proof.Proof.Gen.Kernel
import proofs.«177315_j27573690040806_1_alg».proof.Proof.Gen.Kernel.Skeleton
import proofs.«177315_j27573690040806_1_alg».proof.Proof.Gen.Kernel.Launch
import proofs.«177315_j27573690040806_1_alg».proof.Proof.Gen.Kernel.Points
import proofs.«177315_j27573690040806_1_alg».proof.Proof.Gen.Kernel.Frame
import proofs.«177315_j27573690040806_1_alg».proof.Proof.Gen.KernelIdeal
import proofs.«177315_j27573690040806_1_alg».proof.Proof.Gen.KernelIdeal.Skeleton
import proofs.«177315_j27573690040806_1_alg».proof.Proof.Gen.KernelIdeal.Launch
import proofs.«177315_j27573690040806_1_alg».proof.Proof.Gen.KernelIdeal.Points
import proofs.«177315_j27573690040806_1_alg».proof.Proof.Gen.KernelIdeal.Frame
import proofs.«177315_j27573690040806_1_alg».proof.Proof.Gen.ReferenceIdeal
import proofs.«177315_j27573690040806_1_alg».proof.Proof.Gen.Pre_finite_inputs
import proofs.«177315_j27573690040806_1_alg».proof.Proof.Gen.ReferenceIdeal.Run
import proofs.«177315_j27573690040806_1_alg».proof.Proof.Gen.ReferenceIdeal.Read
import proofs.«177315_j27573690040806_1_alg».proof.Proof.KernelValue
import proofs.«177315_j27573690040806_1_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From arguments that agree, the kernel's result array and the reference's both end at the gated feed-forward
    block of those arguments, entry by entry. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v13_eq, Cert.ReferenceIdeal.RefValue.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
